-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x1 : Shape := ⟨2, ![4096, 1]⟩
abbrev S4096x512 : Shape := ⟨2, ![4096, 512]⟩
abbrev S256x2560 : Shape := ⟨2, ![256, 2560]⟩
abbrev S512x1536 : Shape := ⟨2, ![512, 1536]⟩
abbrev S1x1536 : Shape := ⟨2, ![1, 1536]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x512 : S_.BroadcastsInDim S4096x512 (![] : Fin 0 → Fin S4096x512.rank)
  reducesTo_S4096x512_S_d0_1 : S4096x512.ReducesTo [0, 1] S_
  bcast_S_S256x2560 : S_.BroadcastsInDim S256x2560 (![] : Fin 0 → Fin S256x2560.rank)
  reducesTo_S256x2560_S_d0_1 : S256x2560.ReducesTo [0, 1] S_
  bcast_S_S512x1536 : S_.BroadcastsInDim S512x1536 (![] : Fin 0 → Fin S512x1536.rank)
  reducesTo_S512x1536_S_d0_1 : S512x1536.ReducesTo [0, 1] S_
  bcast_S_S1x1536 : S_.BroadcastsInDim S1x1536 (![] : Fin 0 → Fin S1x1536.rank)
  reducesTo_S1x1536_S_d0_1 : S1x1536.ReducesTo [0, 1] S_

variable [Facts]

def fn_part1 {F : FTy → Type} [FloatOps F] (main_arg4 : FVec F S256x2560 .f32) (main_arg5 : FVec F S512x1536 .f32) (main_arg6 : FVec F S1x1536 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S256x2560 .f32 := Host.absf main_arg4
  let main_cst_6 : FVec F S_ .f32 := constant S_ .f32 0x7F800000#32
  let main_v20 : FVec F S256x2560 .f32 := broadcastInDim S256x2560 ![] bcast_S_S256x2560 main_cst_6
  let main_v21 : IVec S256x2560 1 := cmpf .olt main_v19 main_v20
  let main_c_7 : IVec S_ 1 := constantI S_ 1 1#1
  let main_v22 : IVec S_ 1 := (fun x v => Host.reduce IntOp.andi x v reducesTo_S256x2560_S_d0_1 h_S_) main_v21 main_c_7
  let main_v23 : IVec S_ 1 := andi main_v18 main_v22
  let main_v24 : FVec F S512x1536 .f32 := Host.absf main_arg5
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S1x1536 .f32 := Host.absf main_arg6
  let main_cst_10 : FVec F S_ .f32 := constant S_ .f32 0x7F800000#32
  let main_v30 : FVec F S1x1536 .f32 := broadcastInDim S1x1536 ![] bcast_S_S1x1536 main_cst_10
  let main_v31 : IVec S1x1536 1 := cmpf .olt main_v29 main_v30
  let main_c_11 : IVec S_ 1 := constantI S_ 1 1#1
  let main_v32 : IVec S_ 1 := (fun x v => Host.reduce IntOp.andi x v reducesTo_S1x1536_S_d0_1 h_S_) main_v31 main_c_11
  let main_v33 : IVec S_ 1 := andi main_v28 main_v32
  main_v33

def fn {F : FTy → Type} [FloatOps F] (main_arg0 : FVec F S4096x256 .f32) (main_arg1 : FVec F S4096x1 .f32) (main_arg2 : FVec F S4096x512 .f32) (main_arg3 : FVec F S4096x512 .f32) (main_arg4 : FVec F S256x2560 .f32) (main_arg5 : FVec F S512x1536 .f32) (main_arg6 : FVec F S1x1536 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_v13 main_v16
-- ==== Kernel.lean ====
abbrev S4096x256 : Shape := ⟨2, ![4096, 256]⟩
abbrev S4096x1 : Shape := ⟨2, ![4096, 1]⟩
abbrev S4096x512 : Shape := ⟨2, ![4096, 512]⟩
abbrev S256x2560 : Shape := ⟨2, ![256, 2560]⟩
abbrev S512x1536 : Shape := ⟨2, ![512, 1536]⟩
abbrev S1x1536 : Shape := ⟨2, ![1, 1536]⟩
abbrev S256x256 : Shape := ⟨2, ![256, 256]⟩
abbrev S256x1 : Shape := ⟨2, ![256, 1]⟩
abbrev S256x512 : Shape := ⟨2, ![256, 512]⟩
abbrev S256x1536 : Shape := ⟨2, ![256, 1536]⟩

abbrev nBuf : Space → Nat
  | .hbm => 13
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x1, .f32⟩
  | .hbm, ⟨2, _⟩ => ⟨S4096x512, .f32⟩
  | .hbm, ⟨3, _⟩ => ⟨S4096x512, .f32⟩
  | .hbm, ⟨4, _⟩ => ⟨S256x2560, .f32⟩
  | .hbm, ⟨5, _⟩ => ⟨S512x1536, .f32⟩
  | .hbm, ⟨6, _⟩ => ⟨S1x1536, .f32⟩
  | .hbm, ⟨7, _⟩ => ⟨S4096x256, .bf16⟩
  | .hbm, ⟨8, _⟩ => ⟨S4096x512, .bf16⟩
  | .hbm, ⟨9, _⟩ => ⟨S256x2560, .bf16⟩
  | .hbm, ⟨10, _⟩ => ⟨S512x1536, .bf16⟩
  | .hbm, ⟨11, _⟩ => ⟨S4096x512, .f32⟩
  | .hbm, ⟨12, _⟩ => ⟨S4096x512, .f32⟩
  | .local _ .vmem, ⟨0, _⟩ => ⟨S256x256, .bf16⟩
  | .local _ .vmem, ⟨1, _⟩ => ⟨S256x256, .bf16⟩
  | .local _ .vmem, ⟨2, _⟩ => ⟨S256x1, .f32⟩
  | .local _ .vmem, ⟨3, _⟩ => ⟨S256x1, .f32⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x2560, .bf16⟩
  | .local _ .vmem, ⟨9, _⟩ => ⟨S512x1536, .bf16⟩
  | .local _ .vmem, ⟨10, _⟩ => ⟨S1x1536, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S256x1_S256x1_0_0 : ∀ a, (![0, 0] : Fin 2 → Nat) a + S256x1.size a ≤ S256x1.size a
  h_S256x1 : 0 < S256x1.numel
  inb_S1x1536_S1x1536_0_0 : ∀ a, (![0, 0] : Fin 2 → Nat) a + S1x1536.size a ≤ S1x1536.size a
  h_S1x1536 : 0 < S1x1536.numel
  shapeCasts_S256x1_S256x1 : S256x1.ShapeCasts S256x1
  broadcasts_S256x1_S256x1536 : S256x1.Broadcasts S256x1536
  shapeCasts_S1x1536_S1x1536 : S1x1536.ShapeCasts S1x1536
  broadcasts_S1x1536_S256x1536 : S1x1536.Broadcasts S256x1536
  slices_S256x2560_o0_0_S256x512 : S256x2560.Slices ![0, 0] S256x512
  slices_S256x2560_o0_512_S256x512 : S256x2560.Slices ![0, 512] S256x512
  slices_S256x2560_o0_1024_S256x512 : S256x2560.Slices ![0, 1024] S256x512
  slices_S256x2560_o0_1536_S256x512 : S256x2560.Slices ![0, 1536] S256x512
  slices_S256x2560_o0_2048_S256x512 : S256x2560.Slices ![0, 2048] S256x512
  slices_S256x1536_o0_0_S256x512 : S256x1536.Slices ![0, 0] S256x512
  slices_S256x1536_o0_512_S256x512 : S256x1536.Slices ![0, 512] S256x512
  slices_S256x1536_o0_1024_S256x512 : S256x1536.Slices ![0, 1024] S256x512
  dot_S256x256_S256x2560_S256x2560_1_0_0_1_n_n_wf : DotDims.WF S256x256 S256x2560 S256x2560 [1] [0] [0] [1] [] []
  dot_S256x512_S512x1536_S256x1536_1_0_0_1_n_n_wf : DotDims.WF S256x512 S512x1536 S256x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .bf16 = 32 ∨ (Rect.block (s := S4096x256) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S4096x512.size a
  hwx0_2 : ∀ i : grid0.Coords, EltTy.bits .bf16 = 32 ∨ (Rect.block (s := S4096x512) S256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S4096x512.size a
  hwx0_3 : ∀ i : grid0.Coords, EltTy.bits .f32 = 32 ∨ (Rect.block (s := S4096x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2560.size a ≤ S256x2560.size a
  hwx0_4 : ∀ i : grid0.Coords, EltTy.bits .bf16 = 32 ∨ (Rect.block (s := S256x2560) S256x2560.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S4096x512.size a
  hwx0_7 : ∀ i : grid0.Coords, EltTy.bits .f32 = 32 ∨ (Rect.block (s := S4096x512) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S4096x512.size a
  hwx0_8 : ∀ i : grid0.Coords, EltTy.bits .f32 = 32 ∨ (Rect.block (s := S4096x512) S256x512.size (cc0_transform_8 i) (hinb0_8 i)).WholeWords (EltTy.packing .f32)

variable [Facts₀]

def dot_S256x256_S256x2560_S256x2560_1_0_0_1_n_n : DotDims S256x256 S256x2560 S256x2560 where
  lhsContracting := [1]
  rhsContracting := [0]
  lhsNonContracting := [0]
  rhsNonContracting := [1]
  lhsBatch := []
  rhsBatch := []
  wf := dot_S256x256_S256x2560_S256x2560_1_0_0_1_n_n_wf
def dot_S256x512_S512x1536_S256x1536_1_0_0_1_n_n : DotDims S256x512 S512x1536 S256x1536 where
  lhsContracting := [1]
  rhsContracting := [0]
  lhsNonContracting := [0]
  rhsNonContracting := [1]
  lhsBatch := []
  rhsBatch := []
  wf := dot_S256x512_S512x1536_S256x1536_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x2560.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x1 : Shape := ⟨2, ![4096, 1]⟩
abbrev S4096x512 : Shape := ⟨2, ![4096, 512]⟩
abbrev S256x2560 : Shape := ⟨2, ![256, 2560]⟩
abbrev S512x1536 : Shape := ⟨2, ![512, 1536]⟩
abbrev S1x1536 : Shape := ⟨2, ![1, 1536]⟩
abbrev S4096x2560 : Shape := ⟨2, ![4096, 2560]⟩
abbrev S4096x1536 : Shape := ⟨2, ![4096, 1536]⟩
abbrev S_ : Shape := ⟨0, ![]⟩

abbrev nBuf : Space → Nat
  | .hbm => 99
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1, .f32⟩
  | .hbm, ⟨2, _⟩ => ⟨S4096x512, .f32⟩
  | .hbm, ⟨3, _⟩ => ⟨S4096x512, .f32⟩
  | .hbm, ⟨4, _⟩ => ⟨S256x2560, .f32⟩
  | .hbm, ⟨5, _⟩ => ⟨S512x1536, .f32⟩
  | .hbm, ⟨6, _⟩ => ⟨S1x1536, .f32⟩
  | .hbm, ⟨7, _⟩ => ⟨S4096x2560, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x1536, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x1536, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .i1⟩
  | .hbm, ⟨50, _⟩ => ⟨S_, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096x512, .f32⟩
  | .hbm, ⟨66, _⟩ => ⟨S4096x512, .f32⟩
  | .hbm, ⟨67, _⟩ => ⟨S_, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S_, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S_, .f32⟩
  | .hbm, ⟨92, _⟩ => ⟨S4096x512, .f32⟩
  | .hbm, ⟨93, _⟩ => ⟨S4096x512, .f32⟩
  | .hbm, ⟨94, _⟩ => ⟨S_, .f32⟩
  | .hbm, ⟨95, _⟩ => ⟨S4096x512, .f32⟩
  | .hbm, ⟨96, _⟩ => ⟨S4096x512, .f32⟩
  | .hbm, ⟨97, _⟩ => ⟨S4096x512, .f32⟩
  | .hbm, ⟨98, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]

class Facts₀ : Prop where
  slices_S4096x2560_S4096x512_0_0 : S4096x2560.Slices ![0, 0] S4096x512
  slices_S4096x2560_S4096x512_0_512 : S4096x2560.Slices ![0, 512] S4096x512
  slices_S4096x2560_S4096x512_0_1024 : S4096x2560.Slices ![0, 1024] S4096x512
  slices_S4096x2560_S4096x512_0_1536 : S4096x2560.Slices ![0, 1536] S4096x512
  slices_S4096x2560_S4096x512_0_2048 : S4096x2560.Slices ![0, 2048] S4096x512
  slices_S4096x1536_S4096x512_0_0 : S4096x1536.Slices ![0, 0] S4096x512
  slices_S4096x1536_S4096x512_0_512 : S4096x1536.Slices ![0, 512] S4096x512
  slices_S4096x1536_S4096x512_0_1024 : S4096x1536.Slices ![0, 1024] S4096x512
  bcast_S_S4096x512 : S_.BroadcastsInDim S4096x512 (![] : Fin 0 → Fin S4096x512.rank)
  dot_S4096x256_S256x2560_S4096x2560_1_0_0_1_n_n_wf : DotDims.WF S4096x256 S256x2560 S4096x2560 [1] [0] [0] [1] [] []
  dot_S4096x512_S512x1536_S4096x1536_1_0_0_1_n_n_wf : DotDims.WF S4096x512 S512x1536 S4096x1536 [1] [0] [0] [1] [] []
  dot_S4096x1_S1x1536_S4096x1536_1_0_0_1_n_n_wf : DotDims.WF S4096x1 S1x1536 S4096x1536 [1] [0] [0] [1] [] []

variable [Facts₀]

def dot_S4096x256_S256x2560_S4096x2560_1_0_0_1_n_n : DotDims S4096x256 S256x2560 S4096x2560 where
  lhsContracting := [1]
  rhsContracting := [0]
  lhsNonContracting := [0]
  rhsNonContracting := [1]
  lhsBatch := []
  rhsBatch := []
  wf := dot_S4096x256_S256x2560_S4096x2560_1_0_0_1_n_n_wf
def dot_S4096x512_S512x1536_S4096x1536_1_0_0_1_n_n : DotDims S4096x512 S512x1536 S4096x1536 where
  lhsContracting := [1]
  rhsContracting := [0]
  lhsNonContracting := [0]
  rhsNonContracting := [1]
  lhsBatch := []
  rhsBatch := []
  wf := dot_S4096x512_S512x1536_S4096x1536_1_0_0_1_n_n_wf
def dot_S4096x1_S1x1536_S4096x1536_1_0_0_1_n_n : DotDims S4096x1 S1x1536 S4096x1536 where
  lhsContracting := [1]
  rhsContracting := [0]
  lhsNonContracting := [0]
  rhsNonContracting := [1]
  lhsBatch := []
  rhsBatch := []
  wf := dot_S4096x1_S1x1536_S4096x1536_1_0_0_1_n_n_wf

class Facts : Prop extends Facts₀ where

variable [Facts]
-- ==== Proof.Cell.lean ====
/-
  The arithmetic of one time-aware LSTM cell, entry by entry, at the ideal values.

  For a batch row `r` and a unit `q` the cell reads three projections of the row: the input projection
  `x · W` (five column groups of width 512: input gate, candidate, output gate, and the two time gates), the recurrent
  projection `h₀ · R` (three groups: input gate, candidate, output gate) and the time projection `t · kₜ`, an outer
  product of a column by a row (three groups: first time gate, second time gate, output gate). With σ the logistic
  function:
      i  = σ(xᵢ + rᵢ)            T₁ = σ(x_t1 + σ(k₁))         T₂ = σ(x_t2 + σ(k₂))         c̃ = tanh(x_c + r_c)
      T₁' = ε if T₁ > ε else T₁   (ε the f32 nearest to −10⁻⁵)
      c_new = (1 − i) · c₀ + i · c̃ · T₂
      h     = tanh((1 − i · T₁) · c₀ + i · c̃ · T₁') · σ(x_o + r_o + k_o)
  Both programs compute exactly these operations in this order; what differs between them is how the three projections
  are laid out (blocks of 256 rows against whole arrays, a broadcast product against a product summed over one term) and
  how σ is spelled (one operation against 1 / (1 + e^(−z))). Nothing here uses a law of the reals beyond those two
  identities, so no input needs to be finite.
-/
import Idealize.ShloMosaic.Lib.ValueIdx
import Idealize.ShloMosaic.PureOps.Ideal.Laws

noncomputable section

open scoped BigOperators

namespace Cert.TimeCell

open Idealize.ShloMosaic Idealize.ShloMosaic.ValueIdx

/-- The f32 pattern of the number one. -/
abbrev one : Ideal .f32 := Ideal.ofBits .f32 0x3F800000#32
/-- The f32 nearest to −10⁻⁵: the ceiling both programs put on the first time gate. -/
abbrev negEps : Ideal .f32 := Ideal.ofBits .f32 0xB727C5AC#32

/-- The pattern 0x3F800000 denotes the real number one. -/
theorem one_eq : one = (1 : EReal) := by
  simp [Ideal.ofBits, Ideal.ieee, -EReal.coe_mul]; norm_num

/-- The logistic function spelled as a quotient, `1 / (1 + e^(−z))` with the host's operations and the pattern of one,
    is the single logistic operation: at the ideal values both are `Ideal.logistic`. -/
theorem sigmoid_host (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = FloatOps.logistic z := by
  have h : FloatOps.ofBits (F := Ideal) .f32 0x3F800000#32 = (1 : Ideal .f32) := one_eq
  rw [h]; rfl

/-- The host's hyperbolic tangent is the kernel's. -/
theorem tanh_host (z : Ideal .f32) : FloatOps.hostUnary .tanh z = FloatOps.tanh z := rfl

/-- The new cell state from the six sums it depends on and the old state: `(1 − i) · c₀ + i · c̃ · T₂`. -/
def cellC (ai ri ac rc a2 k2 c0 : Ideal .f32) : Ideal .f32 :=
  FloatOps.addf
    (FloatOps.mulf (FloatOps.subf one (FloatOps.logistic (FloatOps.addf ai ri))) c0)
    (FloatOps.mulf
      (FloatOps.mulf (FloatOps.logistic (FloatOps.addf ai ri)) (FloatOps.tanh (FloatOps.addf ac rc)))
      (FloatOps.logistic (FloatOps.addf a2 (FloatOps.logistic k2))))

/-- The new hidden state: `tanh((1 − i · T₁) · c₀ + i · c̃ · T₁') · σ(x_o + r_o + k_o)`, the first time gate `T₁` capped at ε. -/
def cellH (ai ri a1 k1 c0 ac rc ao ro ko : Ideal .f32) : Ideal .f32 :=
  FloatOps.mulf
    (FloatOps.tanh
      (FloatOps.addf
        (FloatOps.mulf
          (FloatOps.subf one
            (FloatOps.mulf (FloatOps.logistic (FloatOps.addf ai ri))
              (FloatOps.logistic (FloatOps.addf a1 (FloatOps.logistic k1)))))
          c0)
        (FloatOps.mulf
          (FloatOps.mulf (FloatOps.logistic (FloatOps.addf ai ri)) (FloatOps.tanh (FloatOps.addf ac rc)))
          (Scalar.select
            (FloatOps.cmpf .ogt (FloatOps.logistic (FloatOps.addf a1 (FloatOps.logistic k1))) negEps)
            negEps
            (FloatOps.logistic (FloatOps.addf a1 (FloatOps.logistic k1)))))))
    (FloatOps.logistic (FloatOps.addf (FloatOps.addf ao ro) ko))

/-- Column `q` of the column group that starts at `o`, among the input projection's 2560 columns. -/
abbrev colX (o : Nat) (h : o + 512 ≤ 2560) (q : Fin 512) : Fin 2560 := ⟨q.val + o, by omega⟩
/-- Column `q` of the column group that starts at `o`, among the 1536 columns of the other two projections. -/
abbrev colH (o : Nat) (h : o + 512 ≤ 1536) (q : Fin 512) : Fin 1536 := ⟨q.val + o, by omega⟩

section Arrays

variable (X : FVec Ideal ⟨2, ![4096, 256]⟩ .f32) (T : FVec Ideal ⟨2, ![4096, 1]⟩ .f32)
  (H C : FVec Ideal ⟨2, ![4096, 512]⟩ .f32) (W : FVec Ideal ⟨2, ![256, 2560]⟩ .f32)
  (R : FVec Ideal ⟨2, ![512, 1536]⟩ .f32) (KT : FVec Ideal ⟨2, ![1, 1536]⟩ .f32)

/-- Entry (r, j) of the input projection `x · W`. -/
def projX (r : Fin 4096) (j : Fin 2560) : Ideal .f32 := ∑ k : Fin 256, X (ix2 r k) * W (ix2 k j)
/-- Entry (r, j) of the recurrent projection `h₀ · R`. -/
def projH (r : Fin 4096) (j : Fin 1536) : Ideal .f32 := ∑ k : Fin 512, H (ix2 r k) * R (ix2 k j)
/-- Entry (r, j) of the time projection: the elapsed time of row `r` times weight `j`. -/
def projT (r : Fin 4096) (j : Fin 1536) : Ideal .f32 := T (ix2 r 0) * KT (ix2 0 j)

/-- The new hidden state of row `r`, unit `q`. -/
def hAt (r : Fin 4096) (q : Fin 512) : Ideal .f32 :=
  cellH (projX X W r (colX 0 (by omega) q)) (projH H R r (colH 0 (by omega) q))
    (projX X W r (colX 1536 (by omega) q)) (projT T KT r (colH 0 (by omega) q))
    (C (ix2 r q))
    (projX X W r (colX 512 (by omega) q)) (projH H R r (colH 512 (by omega) q))
    (projX X W r (colX 1024 (by omega) q)) (projH H R r (colH 1024 (by omega) q))
    (projT T KT r (colH 1024 (by omega) q))

/-- The new cell state of row `r`, unit `q`. -/
def cAt (r : Fin 4096) (q : Fin 512) : Ideal .f32 :=
  cellC (projX X W r (colX 0 (by omega) q)) (projH H R r (colH 0 (by omega) q))
    (projX X W r (colX 512 (by omega) q)) (projH H R r (colH 512 (by omega) q))
    (projX X W r (colX 2048 (by omega) q)) (projT T KT r (colH 512 (by omega) q))
    (C (ix2 r q))

/-- The whole array of new hidden states. -/
def hOut : FVec Ideal ⟨2, ![4096, 512]⟩ .f32 := fun i => hAt X T H C W R KT (i 0) (i 1)
/-- The whole array of new cell states. -/
def cOut : FVec Ideal ⟨2, ![4096, 512]⟩ .f32 := fun i => cAt X T H C W R KT (i 0) (i 1)

end Arrays

end Cert.TimeCell

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Block.lean ====
/-
  One block of the kernel's two results, entry by entry, from the blocks it loads.

  At a grid point the body multiplies the point's 256 rows of `x` by the whole input weight matrix and its 256 rows of
  `h₀` by the whole recurrent matrix, each into a zero accumulator: entry (p, j) of such a product is the sum over the
  contracted coordinate of the row's entry times the matrix's. The time projection is the product of the row's elapsed
  time by a weight. The column groups of the three projections are then combined entry by entry: that combination is
  `cellH` for the hidden state and `cellC` for the cell state.
-/
import proofs.«146876_j64089501990951_1_alg».proof.Proof.Gen.KernelIdeal.Value
import proofs.«146876_j64089501990951_1_alg».proof.Proof.LibDot
import proofs.«146876_j64089501990951_1_alg».proof.Proof.Cell
import Idealize.ShloMosaic.Lib.Pipeline.Value
import Idealize.ShloMosaic.Lib.ValueIdx

noncomputable section

open scoped BigOperators

namespace Cert.KernelIdeal.Block

open Cert.KernelIdeal Cert.KernelIdeal.Gen Idealize.ShloMosaic Idealize.ShloMosaic.ValueIdx Cert.TimeCell

/-- The offset of a whole-buffer access is zero on both axes. -/
theorem hz : (![0, 0] : Fin 2 → Nat) = fun _ => 0 := funext fun a => by fin_cases a <;> rfl

/-- Entry (a, b) of the block's input projection: the row's 256 entries against column `b` of the weights. -/
theorem xw_apply (P0 : Vec Ideal S256x256 .bf16) (P1 : Vec Ideal S256x2560 .bf16) (a : Fin 256) (b : Fin 2560) :
    k0_pay4 (F := Ideal) P0 P1 (ix2 a b) = ∑ k : Fin 256, P0 (ix2 a k) * P1 (ix2 k b) := by
  show matmul (F := Ideal) dot_S256x256_S256x2560_S256x2560_1_0_0_1_n_n none
      (shapeCast S256x256 P0 shapeCasts_S256x256_S256x256) (shapeCast S256x2560 P1 shapeCasts_S256x2560_S256x2560)
      (constant S256x2560 .f32 0x00000000#32) (ix2 a b) = _
  rw [shapeCast_self, shapeCast_self]
  exact Cert.LibDot.matmul_10_zero_apply _ rfl rfl rfl rfl rfl rfl none P0 P1 a b

/-- Entry (a, b) of the block's recurrent projection: the row's 512 entries against column `b` of the weights. -/
theorem hw_apply (P2 : Vec Ideal S256x512 .bf16) (P3 : Vec Ideal S512x1536 .bf16) (a : Fin 256) (b : Fin 1536) :
    k0_pay5 (F := Ideal) P2 P3 (ix2 a b) = ∑ k : Fin 512, P2 (ix2 a k) * P3 (ix2 k b) := by
  show matmul (F := Ideal) dot_S256x512_S512x1536_S256x1536_1_0_0_1_n_n none
      (shapeCast S256x512 P2 shapeCasts_S256x512_S256x512) (shapeCast S512x1536 P3 shapeCasts_S512x1536_S512x1536)
      (constant S256x1536 .f32 0x00000000#32) (ix2 a b) = _
  rw [shapeCast_self, shapeCast_self]
  exact Cert.LibDot.matmul_10_zero_apply _ rfl rfl rfl rfl rfl rfl none P2 P3 a b

/-- The same two products at an index given whole. -/
theorem xw_at (P0 : Vec Ideal S256x256 .bf16) (P1 : Vec Ideal S256x2560 .bf16) (i : S256x2560.Idx) :
    k0_pay4 (F := Ideal) P0 P1 i = ∑ k : Fin 256, P0 (ix2 (i 0) k) * P1 (ix2 k (i 1)) := by
  conv_lhs => rw [eq_ix2 i]
  exact xw_apply P0 P1 (i 0) (i 1)

theorem hw_at (P2 : Vec Ideal S256x512 .bf16) (P3 : Vec Ideal S512x1536 .bf16) (i : S256x1536.Idx) :
    k0_pay5 (F := Ideal) P2 P3 i = ∑ k : Fin 512, P2 (ix2 (i 0) k) * P3 (ix2 k (i 1)) := by
  conv_lhs => rw [eq_ix2 i]
  exact hw_apply P2 P3 (i 0) (i 1)

/-- The hidden-state block at (p, q) is the cell's hidden state of the block's three projections at row `p`. -/
theorem hBlock (P0 : Vec Ideal S256x256 .bf16) (P1 : Vec Ideal S256x2560 .bf16) (P2 : Vec Ideal S256x512 .bf16)
    (P3 : Vec Ideal S512x1536 .bf16) (P4 : Vec Ideal S256x1 .f32) (P5 : Vec Ideal S1x1536 .f32)
    (P6 : Vec Ideal S256x512 .f32) (p : Fin 256) (q : Fin 512) :
    Value.E7 (F := Ideal) P0 P1 P2 P3 P4 P5 P6 (ix2 p q)
      = cellH (∑ k : Fin 256, P0 (ix2 p k) * P1 (ix2 k (colX 0 (by omega) q)))
          (∑ k : Fin 512, P2 (ix2 p k) * P3 (ix2 k (colH 0 (by omega) q)))
          (∑ k : Fin 256, P0 (ix2 p k) * P1 (ix2 k (colX 1536 (by omega) q)))
          (P4 (ix2 p 0) * P5 (ix2 0 (colH 0 (by omega) q)))
          (P6 (ix2 p q))
          (∑ k : Fin 256, P0 (ix2 p k) * P1 (ix2 k (colX 512 (by omega) q)))
          (∑ k : Fin 512, P2 (ix2 p k) * P3 (ix2 k (colH 512 (by omega) q)))
          (∑ k : Fin 256, P0 (ix2 p k) * P1 (ix2 k (colX 1024 (by omega) q)))
          (∑ k : Fin 512, P2 (ix2 p k) * P3 (ix2 k (colH 1024 (by omega) q)))
          (P4 (ix2 p 0) * P5 (ix2 0 (colH 1024 (by omega) q))) := by
  have e3 : Value.ix7_3 (ix2 p q) = ix2 p 0 := eq_ix2 _
  have e4 : Value.ix7_4 (ix2 p q) = ix2 0 (colH 0 (by omega) q) := eq_ix2 _
  have e5 : Value.ix7_5 (ix2 p q) = ix2 p q := eq_ix2 _
  have e11 : Value.ix7_11 (ix2 p q) = ix2 p 0 := eq_ix2 _
  have e12 : Value.ix7_12 (ix2 p q) = ix2 0 (colH 0 (by omega) q) := eq_ix2 _
  have e14 : Value.ix7_14 (ix2 p q) = ix2 p 0 := eq_ix2 _
  have e15 : Value.ix7_15 (ix2 p q) = ix2 0 (colH 0 (by omega) q) := eq_ix2 _
  have e18 : Value.ix7_18 (ix2 p q) = ix2 p 0 := eq_ix2 _
  have e19 : Value.ix7_19 (ix2 p q) = ix2 0 (colH 1024 (by omega) q) := eq_ix2 _
  simp only [Value.E7, xw_at, hw_at, e3, e4, e5, e11, e12, e14, e15, e18, e19]
  rfl

/-- The cell-state block at (p, q) likewise. -/
theorem cBlock (P0 : Vec Ideal S256x256 .bf16) (P1 : Vec Ideal S256x2560 .bf16) (P2 : Vec Ideal S256x512 .bf16)
    (P3 : Vec Ideal S512x1536 .bf16) (P4 : Vec Ideal S256x512 .f32) (P5 : Vec Ideal S256x1 .f32)
    (P6 : Vec Ideal S1x1536 .f32) (p : Fin 256) (q : Fin 512) :
    Value.E8 (F := Ideal) P0 P1 P2 P3 P4 P5 P6 (ix2 p q)
      = cellC (∑ k : Fin 256, P0 (ix2 p k) * P1 (ix2 k (colX 0 (by omega) q)))
          (∑ k : Fin 512, P2 (ix2 p k) * P3 (ix2 k (colH 0 (by omega) q)))
          (∑ k : Fin 256, P0 (ix2 p k) * P1 (ix2 k (colX 512 (by omega) q)))
          (∑ k : Fin 512, P2 (ix2 p k) * P3 (ix2 k (colH 512 (by omega) q)))
          (∑ k : Fin 256, P0 (ix2 p k) * P1 (ix2 k (colX 2048 (by omega) q)))
          (P5 (ix2 p 0) * P6 (ix2 0 (colH 512 (by omega) q)))
          (P4 (ix2 p q)) := by
  have e2 : Value.ix8_2 (ix2 p q) = ix2 p q := eq_ix2 _
  have e8 : Value.ix8_8 (ix2 p q) = ix2 p 0 := eq_ix2 _
  have e9 : Value.ix8_9 (ix2 p q) = ix2 0 (colH 512 (by omega) q) := eq_ix2 _
  simp only [Value.E8, xw_at, hw_at, e2, e8, e9]
  rfl

end Cert.KernelIdeal.Block

end
-- ==== Proof.KernelValue.lean ====
/-
  The kernel's two result arrays after its run, as whole-array functions of its arguments.

  The grid has 16 points; point `t` stages rows 256·t … 256·t + 255 of `x`, `t`, `h₀` and `c₀` (the first and third
  narrowed to bf16 by the host beforehand, which changes no ideal value) and the three weight arrays whole, and writes
  back rows 256·t … 256·t + 255 of both results. So what point `t` writes at (p, q) is the cell of row 256·t + p, unit
  `q`, of the argument arrays; the 16 row bands tile both result arrays, hence each ends as the array of cells.
-/
import proofs.«146876_j64089501990951_1_alg».proof.Proof.Gen.KernelIdeal.Value
import proofs.«146876_j64089501990951_1_alg».proof.Proof.Block
import proofs.«146876_j64089501990951_1_alg».proof.Proof.Cell
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.TimeCell
open Idealize.ShloMosaic.Pipeline (Dat)

variable (m : (ℓ : Loc nD τ sig) → Buf (Elt Ideal) ℓ) (ρ : Dev nD → PrngReg)

/-! ## The argument arrays, and the arrays the region finds -/

abbrev aX (c : Dev nD) : FVec Ideal ⟨2, ![4096, 256]⟩ .f32 := m ((c : Thread nD τ).loc main_arg0)
abbrev aT (c : Dev nD) : FVec Ideal ⟨2, ![4096, 1]⟩ .f32 := m ((c : Thread nD τ).loc main_arg1)
abbrev aH (c : Dev nD) : FVec Ideal ⟨2, ![4096, 512]⟩ .f32 := m ((c : Thread nD τ).loc main_arg2)
abbrev aC (c : Dev nD) : FVec Ideal ⟨2, ![4096, 512]⟩ .f32 := m ((c : Thread nD τ).loc main_arg3)
abbrev aW (c : Dev nD) : FVec Ideal ⟨2, ![256, 2560]⟩ .f32 := m ((c : Thread nD τ).loc main_arg4)
abbrev aR (c : Dev nD) : FVec Ideal ⟨2, ![512, 1536]⟩ .f32 := m ((c : Thread nD τ).loc main_arg5)
abbrev aK (c : Dev nD) : FVec Ideal ⟨2, ![1, 1536]⟩ .f32 := m ((c : Thread nD τ).loc main_arg6)

/-- The host narrows `x` to bf16 before the region: at the ideal values the narrowed array is `x`. -/
theorem V_x (c : Dev nD) : (V m c main_v0 : S4096x256.Idx → EReal) = aX m c := by
  dsimp only [Gen.V, Gen.hostOps0]; after_results; rfl
/-- Likewise `h₀`. -/
theorem V_h (c : Dev nD) : (V m c main_v1 : S4096x512.Idx → EReal) = aH m c := by
  dsimp only [Gen.V, Gen.hostOps0]; after_results; rfl
/-- Likewise the input weights. -/
theorem V_w (c : Dev nD) : (V m c main_v2 : S256x2560.Idx → EReal) = aW m c := by
  dsimp only [Gen.V, Gen.hostOps0]; after_results; rfl
/-- Likewise the recurrent weights. -/
theorem V_r (c : Dev nD) : (V m c main_v3 : S512x1536.Idx → EReal) = aR m c := by
  dsimp only [Gen.V, Gen.hostOps0]; after_results; rfl

/-! ## The blocks a point stages -/

/-- Along the rows the four batch windows and the two result windows move with the point; every window sits at column
    block zero, and the three weight windows do not move (decided over the 16 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of point `t`'s band is row 256·t + p of the array. -/
abbrev row (t : Fin cfg0.N) (p : Fin 256) : Fin 4096 :=
  ⟨t.val * 256 + p.val, by have ht : t.val < 16 := t.isLt; omega⟩

abbrev xb (c : Dev nD) (t : Fin cfg0.N) : Vec Ideal S256x256 .bf16 := iblk m c 0 t
abbrev tb (c : Dev nD) (t : Fin cfg0.N) : Vec Ideal S256x1 .f32 := iblk m c 1 t
abbrev hb (c : Dev nD) (t : Fin cfg0.N) : Vec Ideal S256x512 .bf16 := iblk m c 2 t
abbrev cb (c : Dev nD) (t : Fin cfg0.N) : Vec Ideal S256x512 .f32 := iblk m c 3 t
abbrev wb (c : Dev nD) (t : Fin cfg0.N) : Vec Ideal S256x2560 .bf16 := iblk m c 4 t
abbrev rb (c : Dev nD) (t : Fin cfg0.N) : Vec Ideal S512x1536 .bf16 := iblk m c 5 t
abbrev kb (c : Dev nD) (t : Fin cfg0.N) : Vec Ideal S1x1536 .f32 := iblk m c 6 t

theorem xb_at (c : Dev nD) (t : Fin cfg0.N) (p k : Fin 256) : xb m c t (ix2 p k) = aX m c (ix2 (row t p) k) := by
  show V m c main_v0 (((cfg0.win 0).blk t).view.emb (ix2 p k)) = _
  rw [V_x]
  obtain ⟨e0, e1, -⟩ := idx_facts t
  refine congrArg (aX m c) (funext fun a => Fin.ext ?_)
  match a with
  | ⟨0, _⟩ => show win0_0.index t (0 : Fin 2) * 256 + 1 * p.val = t.val * 256 + p.val; omega
  | ⟨1, _⟩ => show win0_0.index t (1 : Fin 2) * 256 + 1 * k.val = k.val; omega

theorem tb_at (c : Dev nD) (t : Fin cfg0.N) (p : Fin 256) : tb m c t (ix2 p 0) = aT m c (ix2 (row t p) 0) := by
  show V m c main_arg1 (((cfg0.win 1).blk t).view.emb (ix2 p 0)) = _
  rw [V_main_arg1]
  obtain ⟨-, -, e0, e1, -⟩ := idx_facts t
  refine congrArg (aT m c) (funext fun a => Fin.ext ?_)
  match a with
  | ⟨0, _⟩ => show win0_1.index t (0 : Fin 2) * 256 + 1 * p.val = t.val * 256 + p.val; omega
  | ⟨1, _⟩ => show win0_1.index t (1 : Fin 2) * 1 + 1 * 0 = 0; omega

theorem hb_at (c : Dev nD) (t : Fin cfg0.N) (p : Fin 256) (k : Fin 512) : hb m c t (ix2 p k) = aH m c (ix2 (row t p) k) := by
  show V m c main_v1 (((cfg0.win 2).blk t).view.emb (ix2 p k)) = _
  rw [V_h]
  obtain ⟨-, -, -, -, e0, e1, -⟩ := idx_facts t
  refine congrArg (aH m c) (funext fun a => Fin.ext ?_)
  match a with
  | ⟨0, _⟩ => show win0_2.index t (0 : Fin 2) * 256 + 1 * p.val = t.val * 256 + p.val; omega
  | ⟨1, _⟩ => show win0_2.index t (1 : Fin 2) * 512 + 1 * k.val = k.val; omega

theorem cb_at (c : Dev nD) (t : Fin cfg0.N) (p : Fin 256) (q : Fin 512) : cb m c t (ix2 p q) = aC m c (ix2 (row t p) q) := by
  show V m c main_arg3 (((cfg0.win 3).blk t).view.emb (ix2 p q)) = _
  rw [V_main_arg3]
  obtain ⟨-, -, -, -, -, -, e0, e1, -⟩ := idx_facts t
  refine congrArg (aC m c) (funext fun a => Fin.ext ?_)
  match a with
  | ⟨0, _⟩ => show win0_3.index t (0 : Fin 2) * 256 + 1 * p.val = t.val * 256 + p.val; omega
  | ⟨1, _⟩ => show win0_3.index t (1 : Fin 2) * 512 + 1 * q.val = q.val; omega

theorem wb_at (c : Dev nD) (t : Fin cfg0.N) (k : Fin 256) (j : Fin 2560) : wb m c t (ix2 k j) = aW m c (ix2 k j) := by
  show V m c main_v2 (((cfg0.win 4).blk t).view.emb (ix2 k j)) = _
  rw [V_w]
  obtain ⟨-, -, -, -, -, -, -, -, e0, e1, -⟩ := idx_facts t
  refine congrArg (aW m c) (funext fun a => Fin.ext ?_)
  match a with
  | ⟨0, _⟩ => show win0_4.index t (0 : Fin 2) * 256 + 1 * k.val = k.val; omega
  | ⟨1, _⟩ => show win0_4.index t (1 : Fin 2) * 2560 + 1 * j.val = j.val; omega

theorem rb_at (c : Dev nD) (t : Fin cfg0.N) (k : Fin 512) (j : Fin 1536) : rb m c t (ix2 k j) = aR m c (ix2 k j) := by
  show V m c main_v3 (((cfg0.win 5).blk t).view.emb (ix2 k j)) = _
  rw [V_r]
  obtain ⟨-, -, -, -, -, -, -, -, -, -, e0, e1, -⟩ := idx_facts t
  refine congrArg (aR m c) (funext fun a => Fin.ext ?_)
  match a with
  | ⟨0, _⟩ => show win0_5.index t (0 : Fin 2) * 512 + 1 * k.val = k.val; omega
  | ⟨1, _⟩ => show win0_5.index t (1 : Fin 2) * 1536 + 1 * j.val = j.val; omega

theorem kb_at (c : Dev nD) (t : Fin cfg0.N) (j : Fin 1536) : kb m c t (ix2 0 j) = aK m c (ix2 0 j) := by
  show V m c main_arg6 (((cfg0.win 6).blk t).view.emb (ix2 0 j)) = _
  rw [V_main_arg6]
  obtain ⟨-, -, -, -, -, -, -, -, -, -, -, -, e0, e1, -⟩ := idx_facts t
  refine congrArg (aK m c) (funext fun a => Fin.ext ?_)
  match a with
  | ⟨0, _⟩ => show win0_6.index t (0 : Fin 2) * 1 + 1 * 0 = 0; omega
  | ⟨1, _⟩ => show win0_6.index t (1 : Fin 2) * 1536 + 1 * j.val = j.val; omega

/-! ## What the body leaves in each result's buffer, entry by entry -/

theorem out7_at (x0 : Vec Ideal S256x256 .bf16) (x1 : Vec Ideal S256x1 .f32) (x2 : Vec Ideal S256x512 .bf16)
    (x3 : Vec Ideal S256x512 .f32) (x4 : Vec Ideal S256x2560 .bf16) (x5 : Vec Ideal S512x1536 .bf16)
    (x6 : Vec Ideal S1x1536 .f32) (p : Fin 256) (q : Fin 512) :
    out0_7 (F := Ideal) x0 x1 x2 x3 x4 x5 x6 (ix2 p q)
      = cellH (∑ k : Fin 256, x0 (ix2 p k) * x4 (ix2 k (colX 0 (by omega) q)))
          (∑ k : Fin 512, x2 (ix2 p k) * x5 (ix2 k (colH 0 (by omega) q)))
          (∑ k : Fin 256, x0 (ix2 p k) * x4 (ix2 k (colX 1536 (by omega) q)))
          (x1 (ix2 p 0) * x6 (ix2 0 (colH 0 (by omega) q)))
          (x3 (ix2 p q))
          (∑ k : Fin 256, x0 (ix2 p k) * x4 (ix2 k (colX 512 (by omega) q)))
          (∑ k : Fin 512, x2 (ix2 p k) * x5 (ix2 k (colH 512 (by omega) q)))
          (∑ k : Fin 256, x0 (ix2 p k) * x4 (ix2 k (colX 1024 (by omega) q)))
          (∑ k : Fin 512, x2 (ix2 p k) * x5 (ix2 k (colH 1024 (by omega) q)))
          (x1 (ix2 p 0) * x6 (ix2 0 (colH 1024 (by omega) q))) := by
  unfold out0_7
  rw [Value.canon7_eq, Block.hBlock]
  have l0 : View.ld x0 r0_0 = x0 := View.ld_unit_zero Block.hz _ x0
  have l1 : View.ld x1 r0_4 = x1 := View.ld_unit_zero Block.hz _ x1
  have l2 : View.ld x2 r0_2 = x2 := View.ld_unit_zero Block.hz _ x2
  have l3 : View.ld x3 r0_2 = x3 := View.ld_unit_zero Block.hz _ x3
  have l4 : View.ld x4 r0_1 = x4 := View.ld_unit_zero Block.hz _ x4
  have l5 : View.ld x5 r0_3 = x5 := View.ld_unit_zero Block.hz _ x5
  have l6 : View.ld x6 r0_5 = x6 := View.ld_unit_zero Block.hz _ x6
  rw [l0, l1, l2, l3, l4, l5, l6]

theorem out8_at (x0 : Vec Ideal S256x256 .bf16) (x1 : Vec Ideal S256x1 .f32) (x2 : Vec Ideal S256x512 .bf16)
    (x3 : Vec Ideal S256x512 .f32) (x4 : Vec Ideal S256x2560 .bf16) (x5 : Vec Ideal S512x1536 .bf16)
    (x6 : Vec Ideal S1x1536 .f32) (p : Fin 256) (q : Fin 512) :
    out0_8 (F := Ideal) x0 x1 x2 x3 x4 x5 x6 (ix2 p q)
      = cellC (∑ k : Fin 256, x0 (ix2 p k) * x4 (ix2 k (colX 0 (by omega) q)))
          (∑ k : Fin 512, x2 (ix2 p k) * x5 (ix2 k (colH 0 (by omega) q)))
          (∑ k : Fin 256, x0 (ix2 p k) * x4 (ix2 k (colX 512 (by omega) q)))
          (∑ k : Fin 512, x2 (ix2 p k) * x5 (ix2 k (colH 512 (by omega) q)))
          (∑ k : Fin 256, x0 (ix2 p k) * x4 (ix2 k (colX 2048 (by omega) q)))
          (x1 (ix2 p 0) * x6 (ix2 0 (colH 512 (by omega) q)))
          (x3 (ix2 p q)) := by
  unfold out0_8
  rw [Value.canon8_eq, Block.cBlock]
  have l0 : View.ld x0 r0_0 = x0 := View.ld_unit_zero Block.hz _ x0
  have l1 : View.ld x1 r0_4 = x1 := View.ld_unit_zero Block.hz _ x1
  have l2 : View.ld x2 r0_2 = x2 := View.ld_unit_zero Block.hz _ x2
  have l3 : View.ld x3 r0_2 = x3 := View.ld_unit_zero Block.hz _ x3
  have l4 : View.ld x4 r0_1 = x4 := View.ld_unit_zero Block.hz _ x4
  have l5 : View.ld x5 r0_3 = x5 := View.ld_unit_zero Block.hz _ x5
  have l6 : View.ld x6 r0_5 = x6 := View.ld_unit_zero Block.hz _ x6
  rw [l0, l1, l2, l3, l4, l5, l6]

/-! ## What a point writes back is its band of the cell arrays -/

/-- Entry (p, q) of point `t`'s band lies at row 256·t + p, column `q`, of either result array. -/
theorem emb7 (t : Fin cfg0.N) (p : Fin 256) (q : Fin 512) :
    ((cfg0.win 7).blk t).view.emb (ix2 p q) = ix2 (row t p) q := by
  obtain ⟨-, -, -, -, -, -, -, -, -, -, -, -, -, -, e0, e1, -⟩ := idx_facts t
  funext a; apply Fin.ext
  match a with
  | ⟨0, _⟩ => show win0_7.index t (0 : Fin 2) * 256 + 1 * p.val = t.val * 256 + p.val; omega
  | ⟨1, _⟩ => show win0_7.index t (1 : Fin 2) * 512 + 1 * q.val = q.val; omega

theorem emb8 (t : Fin cfg0.N) (p : Fin 256) (q : Fin 512) :
    ((cfg0.win 8).blk t).view.emb (ix2 p q) = ix2 (row t p) q := by
  obtain ⟨-, -, -, -, -, -, -, -, -, -, -, -, -, -, -, -, e0, e1⟩ := idx_facts t
  funext a; apply Fin.ext
  match a with
  | ⟨0, _⟩ => show win0_8.index t (0 : Fin 2) * 256 + 1 * p.val = t.val * 256 + p.val; omega
  | ⟨1, _⟩ => show win0_8.index t (1 : Fin 2) * 512 + 1 * q.val = q.val; omega

/-- What point `t` writes back to the first result is band `t` of the array of new hidden states. -/
theorem flushed7_eq (c : Dev nD) (t : Fin cfg0.N) :
    (dats m 0 c).flushed 7 t
      = ((cfg0.win 7).blk t).view.read (Elt Ideal) (hOut (aX m c) (aT m c) (aH m c) (aC m c) (aW m c) (aR m c) (aK m c)) := by
  rw [Value.flushed7]
  funext j
  obtain ⟨p, q, rfl⟩ : ∃ (p : Fin 256) (q : Fin 512), j = ix2 p q := ⟨j 0, j 1, eq_ix2 j⟩
  show out0_7 (xb m c t) (tb m c t) (hb m c t) (cb m c t) (wb m c t) (rb m c t) (kb m c t) (ix2 p q)
    = hOut (aX m c) (aT m c) (aH m c) (aC m c) (aW m c) (aR m c) (aK m c) (((cfg0.win 7).blk t).view.emb (ix2 p q))
  rw [out7_at, emb7]
  simp only [xb_at, tb_at, hb_at, cb_at, wb_at, rb_at, kb_at]
  rfl

/-- What point `t` writes back to the second result is band `t` of the array of new cell states. -/
theorem flushed8_eq (c : Dev nD) (t : Fin cfg0.N) :
    (dats m 0 c).flushed 8 t
      = ((cfg0.win 8).blk t).view.read (Elt Ideal) (cOut (aX m c) (aT m c) (aH m c) (aC m c) (aW m c) (aR m c) (aK m c)) := by
  rw [Value.flushed8]
  funext j
  obtain ⟨p, q, rfl⟩ : ∃ (p : Fin 256) (q : Fin 512), j = ix2 p q := ⟨j 0, j 1, eq_ix2 j⟩
  show out0_8 (xb m c t) (tb m c t) (hb m c t) (cb m c t) (wb m c t) (rb m c t) (kb m c t) (ix2 p q)
    = cOut (aX m c) (aT m c) (aH m c) (aC m c) (aW m c) (aR m c) (aK m c) (((cfg0.win 8).blk t).view.emb (ix2 p q))
  rw [out8_at, emb8]
  simp only [xb_at, tb_at, hb_at, cb_at, wb_at, rb_at, kb_at]
  rfl

/-! ## The bands tile the result arrays -/

theorem mem_blk7 (t : Fin cfg0.N) (i : S4096x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v4_0).slice (win0_7.rect t)).set ↔ _
  rw [View.set_slice_whole, Rect.mem_set_unit]
  exact Iff.rfl

theorem mem_blk8 (t : Fin cfg0.N) (i : S4096x512.Idx) :
    i ∈ ((cfg0.win 8).blk t).view.set ↔ ∀ a : Fin 2, win0_8.index t a * S256x512.size a ≤ (i a).val ∧ (i a).val < win0_8.index t a * S256x512.size a + S256x512.size a := by
  show i ∈ ((View.whole main_v4_1).slice (win0_8.rect t)).set ↔ _
  rw [View.set_slice_whole, Rect.mem_set_unit]
  exact Iff.rfl

/-- Row `r` lies in the band of point `r / 256`. -/
theorem cover7 (i : S4096x512.Idx) : ∃ t : Fin cfg0.N, (cfg0.win 7).flush t = true ∧ i ∈ ((cfg0.win 7).blk t).view.set := by
  have hi0 : (i 0).val < 4096 := (i 0).isLt
  have hi1 : (i 1).val < 512 := (i 1).isLt
  refine ⟨⟨(i 0).val / 256, by show (i 0).val / 256 < 16; omega⟩, flush0_7 _, ?_⟩
  rw [mem_blk7]
  obtain ⟨-, -, -, -, -, -, -, -, -, -, -, -, -, -, e0, e1, -⟩ := idx_facts ⟨(i 0).val / 256, by show (i 0).val / 256 < 16; omega⟩
  intro a
  match a with
  | ⟨0, _⟩ =>
    show win0_7.index _ (0 : Fin 2) * 256 ≤ (i 0).val ∧ (i 0).val < win0_7.index _ (0 : Fin 2) * 256 + 256
    rw [e0]; show (i 0).val / 256 * 256 ≤ (i 0).val ∧ (i 0).val < (i 0).val / 256 * 256 + 256; omega
  | ⟨1, _⟩ =>
    show win0_7.index _ (1 : Fin 2) * 512 ≤ (i 1).val ∧ (i 1).val < win0_7.index _ (1 : Fin 2) * 512 + 512
    rw [e1]; omega

theorem cover8 (i : S4096x512.Idx) : ∃ t : Fin cfg0.N, (cfg0.win 8).flush t = true ∧ i ∈ ((cfg0.win 8).blk t).view.set := by
  have hi0 : (i 0).val < 4096 := (i 0).isLt
  have hi1 : (i 1).val < 512 := (i 1).isLt
  refine ⟨⟨(i 0).val / 256, by show (i 0).val / 256 < 16; omega⟩, flush0_8 _, ?_⟩
  rw [mem_blk8]
  obtain ⟨-, -, -, -, -, -, -, -, -, -, -, -, -, -, -, -, e0, e1⟩ := idx_facts ⟨(i 0).val / 256, by show (i 0).val / 256 < 16; omega⟩
  intro a
  match a with
  | ⟨0, _⟩ =>
    show win0_8.index _ (0 : Fin 2) * 256 ≤ (i 0).val ∧ (i 0).val < win0_8.index _ (0 : Fin 2) * 256 + 256
    rw [e0]; show (i 0).val / 256 * 256 ≤ (i 0).val ∧ (i 0).val < (i 0).val / 256 * 256 + 256; omega
  | ⟨1, _⟩ =>
    show win0_8.index _ (1 : Fin 2) * 512 ≤ (i 1).val ∧ (i 1).val < win0_8.index _ (1 : Fin 2) * 512 + 512
    rw [e1]; omega

/-! ## The arrays after the run -/

theorem final7 (c : Dev nD) :
    (dats m 0 c).arrAt 7 cfg0.N = hOut (aX m c) (aT m c) (aH m c) (aC m c) (aW m c) (aR m c) (aK m c) :=
  (dats m 0 c).arrAt_eq_of_cover 7 _ (fun t _ => flushed7_eq m c t) cover7

theorem final8 (c : Dev nD) :
    (dats m 0 c).arrAt 8 cfg0.N = cOut (aX m c) (aT m c) (aH m c) (aC m c) (aW m c) (aR m c) (aK m c) :=
  (dats m 0 c).arrAt_eq_of_cover 8 _ (fun t _ => flushed8_eq m c t) cover8

/-- Every weakly fair execution of the kernel program ends with the first result at the array of new hidden states, the
    second at the array of new cell states, and the arguments as they were. -/
theorem run : θ_run defs (onTc (τ := τ) (main (F := Ideal))) ⟨m, fun _ => 0, ρ⟩ fun r => ∀ c : Dev nD,
      r.2.mem ((c : Thread nD τ).loc main_v4_0) = hOut (aX m c) (aT m c) (aH m c) (aC m c) (aW m c) (aR m c) (aK m c)
      ∧ r.2.mem ((c : Thread nD τ).loc main_v4_1) = cOut (aX m c) (aT m c) (aH m c) (aC m c) (aW m c) (aR m c) (aK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.Whole

end
-- ==== Proof.RefValue.lean ====
/-
  The reference's two results as whole-array functions of its arguments.

  The reference multiplies the whole arrays: `x · W`, `h₀ · R` and `t · kₜ` (the last a product summed over a single
  term), cuts each product into its column groups, and combines the groups entry by entry with the logistic function
  written out as 1 / (1 + e^(−z)). Read at an entry (r, q), every stage is one operation of the stages before it at
  that entry, a column group reads its product `512·g` columns to the right, and the written-out logistic function is the
  logistic function: so each result at (r, q) is the cell of row `r`, unit `q`.
-/
import proofs.«146876_j64089501990951_1_alg».proof.Proof.Gen.ReferenceIdeal.Read
import proofs.«146876_j64089501990951_1_alg».proof.Proof.Cell
import Idealize.ShloMosaic.Lib.ValueIdx

set_option maxRecDepth 16384

noncomputable section

open scoped BigOperators

namespace Cert.ReferenceIdeal.Whole

open Cert.ReferenceIdeal Cert.ReferenceIdeal.Gen Cert.ReferenceIdeal.Read Idealize.ShloMosaic
open Idealize.ShloMosaic.ValueIdx Cert.TimeCell

/-! ## Where each product reads its operands, and where each column group reads its product -/

theorem lx (j : S4096x2560.Idx) (k : Fin 256) : lidx_main_v0 j k = ix2 (j 0) k := eq_ix2 _
theorem rx (j : S4096x2560.Idx) (k : Fin 256) : ridx_main_v0 j k = ix2 k (j 1) := eq_ix2 _
theorem lh (j : S4096x1536.Idx) (k : Fin 512) : lidx_main_v6 j k = ix2 (j 0) k := eq_ix2 _
theorem rh (j : S4096x1536.Idx) (k : Fin 512) : ridx_main_v6 j k = ix2 k (j 1) := eq_ix2 _
theorem lt (j : S4096x1536.Idx) (k : Fin 1) : lidx_main_v10 j k = ix2 (j 0) k := eq_ix2 _
theorem rt (j : S4096x1536.Idx) (k : Fin 1) : ridx_main_v10 j k = ix2 k (j 1) := eq_ix2 _

theorem g1 (r : Fin 4096) (q : Fin 512) : idx_main_v1 (ix2 r q) = ix2 r (colX 0 (by omega) q) :=
  funext fun a => Fin.ext (by match a with | ⟨0, _⟩ => rfl | ⟨1, _⟩ => rfl)
theorem g2 (r : Fin 4096) (q : Fin 512) : idx_main_v2 (ix2 r q) = ix2 r (colX 512 (by omega) q) :=
  funext fun a => Fin.ext (by match a with | ⟨0, _⟩ => rfl | ⟨1, _⟩ => (show 512 + q.val = q.val + 512; omega))
theorem g3 (r : Fin 4096) (q : Fin 512) : idx_main_v3 (ix2 r q) = ix2 r (colX 1024 (by omega) q) :=
  funext fun a => Fin.ext (by match a with | ⟨0, _⟩ => rfl | ⟨1, _⟩ => (show 1024 + q.val = q.val + 1024; omega))
theorem g4 (r : Fin 4096) (q : Fin 512) : idx_main_v4 (ix2 r q) = ix2 r (colX 1536 (by omega) q) :=
  funext fun a => Fin.ext (by match a with | ⟨0, _⟩ => rfl | ⟨1, _⟩ => (show 1536 + q.val = q.val + 1536; omega))
theorem g5 (r : Fin 4096) (q : Fin 512) : idx_main_v5 (ix2 r q) = ix2 r (colX 2048 (by omega) q) :=
  funext fun a => Fin.ext (by match a with | ⟨0, _⟩ => rfl | ⟨1, _⟩ => (show 2048 + q.val = q.val + 2048; omega))
theorem g7 (r : Fin 4096) (q : Fin 512) : idx_main_v7 (ix2 r q) = ix2 r (colH 0 (by omega) q) :=
  funext fun a => Fin.ext (by match a with | ⟨0, _⟩ => rfl | ⟨1, _⟩ => rfl)
theorem g8 (r : Fin 4096) (q : Fin 512) : idx_main_v8 (ix2 r q) = ix2 r (colH 512 (by omega) q) :=
  funext fun a => Fin.ext (by match a with | ⟨0, _⟩ => rfl | ⟨1, _⟩ => (show 512 + q.val = q.val + 512; omega))
theorem g9 (r : Fin 4096) (q : Fin 512) : idx_main_v9 (ix2 r q) = ix2 r (colH 1024 (by omega) q) :=
  funext fun a => Fin.ext (by match a with | ⟨0, _⟩ => rfl | ⟨1, _⟩ => (show 1024 + q.val = q.val + 1024; omega))
theorem g11 (r : Fin 4096) (q : Fin 512) : idx_main_v11 (ix2 r q) = ix2 r (colH 0 (by omega) q) :=
  funext fun a => Fin.ext (by match a with | ⟨0, _⟩ => rfl | ⟨1, _⟩ => rfl)
theorem g12 (r : Fin 4096) (q : Fin 512) : idx_main_v12 (ix2 r q) = ix2 r (colH 512 (by omega) q) :=
  funext fun a => Fin.ext (by match a with | ⟨0, _⟩ => rfl | ⟨1, _⟩ => (show 512 + q.val = q.val + 512; omega))
theorem g13 (r : Fin 4096) (q : Fin 512) : idx_main_v13 (ix2 r q) = ix2 r (colH 1024 (by omega) q) :=
  funext fun a => Fin.ext (by match a with | ⟨0, _⟩ => rfl | ⟨1, _⟩ => (show 1024 + q.val = q.val + 1024; omega))

/-! ## The two results -/

/-- The reference's first result is the array of new hidden states. -/
theorem h_eq (x0 : (⟨S4096x256, .f32⟩ : BufTy).Contents (Elt Ideal)) (x1 : (⟨S4096x1, .f32⟩ : BufTy).Contents (Elt Ideal))
    (x2 x3 : (⟨S4096x512, .f32⟩ : BufTy).Contents (Elt Ideal)) (x4 : (⟨S256x2560, .f32⟩ : BufTy).Contents (Elt Ideal))
    (x5 : (⟨S512x1536, .f32⟩ : BufTy).Contents (Elt Ideal)) (x6 : (⟨S1x1536, .f32⟩ : BufTy).Contents (Elt Ideal)) :
    val_main_v75 (F := Ideal) x0 x1 x2 x3 x4 x5 x6 = hOut x0 x1 x2 x3 x4 x5 x6 := by
  funext i
  obtain ⟨r, q, rfl⟩ : ∃ (r : Fin 4096) (q : Fin 512), i = ix2 r q := ⟨i 0, i 1, eq_ix2 i⟩
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_cst_apply, val_main_v17_apply, val_main_v18_apply, val_main_cst_0_apply, val_main_v19_apply, val_main_v20_apply, val_main_v21_apply, val_main_v22_apply, val_main_cst_1_apply, val_main_v23_apply, val_main_v24_apply, val_main_cst_2_apply, val_main_v25_apply, val_main_v26_apply, val_main_v27_apply, val_main_v28_apply, val_main_v29_apply, val_main_cst_3_apply, val_main_v30_apply, val_main_v31_apply, val_main_cst_4_apply, val_main_v32_apply, val_main_v33_apply, val_main_cst_5_apply, val_main_v34_apply, val_main_v35_apply, val_main_cst_6_apply, val_main_v36_apply, val_main_v37_apply, val_main_v38_apply, val_main_v39_apply, val_main_cst_7_apply, val_main_v40_apply, val_main_v41_apply, val_main_cst_8_apply, val_main_v42_apply, val_main_v43_apply, val_main_v44_apply, val_main_v45_apply, val_main_v46_apply, val_main_cst_9_apply, val_main_v47_apply, val_main_v48_apply, val_main_cst_10_apply, val_main_v49_apply, val_main_v50_apply, val_main_v51_apply, val_main_v52_apply, val_main_v53_apply, val_main_cst_11_apply, val_main_v54_apply, val_main_v55_apply, val_main_v56_apply, val_main_v57_apply, val_main_v58_apply, val_main_v59_apply, val_main_cst_12_apply, val_main_v60_apply, val_main_v61_apply, val_main_v62_apply, val_main_v63_apply, val_main_v64_apply, val_main_v65_apply, val_main_v66_apply, val_main_v67_apply, val_main_v68_apply, val_main_v69_apply, val_main_cst_13_apply, val_main_v70_apply, val_main_v71_apply, val_main_cst_14_apply, val_main_v72_apply, val_main_v73_apply, val_main_v74_apply, val_main_v75_apply]
  simp only [g1, g2, g3, g4, g5, g7, g8, g9, g11, g12, g13, lx, rx, lh, rh, lt, rt, Fin.sum_univ_one, sigmoid_host, tanh_host]
  rfl

/-- The reference's second result is the array of new cell states. -/
theorem c_eq (x0 : (⟨S4096x256, .f32⟩ : BufTy).Contents (Elt Ideal)) (x1 : (⟨S4096x1, .f32⟩ : BufTy).Contents (Elt Ideal))
    (x2 x3 : (⟨S4096x512, .f32⟩ : BufTy).Contents (Elt Ideal)) (x4 : (⟨S256x2560, .f32⟩ : BufTy).Contents (Elt Ideal))
    (x5 : (⟨S512x1536, .f32⟩ : BufTy).Contents (Elt Ideal)) (x6 : (⟨S1x1536, .f32⟩ : BufTy).Contents (Elt Ideal)) :
    val_main_v65 (F := Ideal) x0 x1 x2 x3 x4 x5 x6 = cOut x0 x1 x2 x3 x4 x5 x6 := by
  funext i
  obtain ⟨r, q, rfl⟩ : ∃ (r : Fin 4096) (q : Fin 512), i = ix2 r q := ⟨i 0, i 1, eq_ix2 i⟩
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_cst_apply, val_main_v17_apply, val_main_v18_apply, val_main_cst_0_apply, val_main_v19_apply, val_main_v20_apply, val_main_v21_apply, val_main_v22_apply, val_main_cst_1_apply, val_main_v23_apply, val_main_v24_apply, val_main_cst_2_apply, val_main_v25_apply, val_main_v26_apply, val_main_v27_apply, val_main_v28_apply, val_main_v29_apply, val_main_cst_3_apply, val_main_v30_apply, val_main_v31_apply, val_main_cst_4_apply, val_main_v32_apply, val_main_v33_apply, val_main_cst_5_apply, val_main_v34_apply, val_main_v35_apply, val_main_cst_6_apply, val_main_v36_apply, val_main_v37_apply, val_main_v38_apply, val_main_v39_apply, val_main_cst_7_apply, val_main_v40_apply, val_main_v41_apply, val_main_cst_8_apply, val_main_v42_apply, val_main_v43_apply, val_main_v44_apply, val_main_v45_apply, val_main_v46_apply, val_main_cst_9_apply, val_main_v47_apply, val_main_v48_apply, val_main_cst_10_apply, val_main_v49_apply, val_main_v50_apply, val_main_v51_apply, val_main_v52_apply, val_main_v53_apply, val_main_cst_11_apply, val_main_v54_apply, val_main_v55_apply, val_main_v56_apply, val_main_v57_apply, val_main_v58_apply, val_main_v59_apply, val_main_cst_12_apply, val_main_v60_apply, val_main_v61_apply, val_main_v62_apply, val_main_v63_apply, val_main_v64_apply, val_main_v65_apply, val_main_v66_apply, val_main_v67_apply, val_main_v68_apply, val_main_v69_apply, val_main_cst_13_apply, val_main_v70_apply, val_main_v71_apply, val_main_cst_14_apply, val_main_v72_apply, val_main_v73_apply, val_main_v74_apply, val_main_v75_apply]
  simp only [g1, g2, g3, g4, g5, g7, g8, g9, g11, g12, g13, lx, rx, lh, rh, lt, rt, Fin.sum_univ_one, sigmoid_host, tanh_host]
  rfl

end Cert.ReferenceIdeal.Whole

end
-- ==== Proof.lean ====
/-
  The time-aware LSTM cell as one fused kernel, against its array-at-a-time reference: both compute, for every batch
  row and unit, the same cell of the same three projections (Proof/Cell.lean).

  The kernel walks the batch in 16 bands of 256 rows; at each band it multiplies the band's rows of `x` and `h₀` by the
  whole weight matrices, forms the time projection as a broadcast product, and combines the column groups entry by entry
  (Proof/Block.lean); the bands tile the two result arrays (Proof/KernelValue.lean). The reference forms the three
  projections of the whole arrays, the time projection as a matrix product summed over one term, and writes the logistic
  function as 1 / (1 + e^(−z)) (Proof/RefValue.lean). At the ideal values narrowing to bf16 changes nothing, a product
  into a zero accumulator is the plain sum, a sum over one term is the term, and the written-out logistic function is the
  logistic function; the remaining operations are the same on both sides, in the same order, so no law of the reals that
  could fail at an infinity is used and the precondition is never opened.
  The idealization rewrote no operation of the kernel, so there is nothing for `preserves` to state.
-/
import proofs.«146876_j64089501990951_1_alg».proof.Defs
import proofs.«146876_j64089501990951_1_alg».proof.Proof.Gen.Kernel
import proofs.«146876_j64089501990951_1_alg».proof.Proof.Gen.Kernel.Skeleton
import proofs.«146876_j64089501990951_1_alg».proof.Proof.Gen.Kernel.Launch
import proofs.«146876_j64089501990951_1_alg».proof.Proof.Gen.Kernel.Points
import proofs.«146876_j64089501990951_1_alg».proof.Proof.Gen.Kernel.Frame
import proofs.«146876_j64089501990951_1_alg».proof.Proof.Gen.KernelIdeal
import proofs.«146876_j64089501990951_1_alg».proof.Proof.Gen.KernelIdeal.Skeleton
import proofs.«146876_j64089501990951_1_alg».proof.Proof.Gen.KernelIdeal.Launch
import proofs.«146876_j64089501990951_1_alg».proof.Proof.Gen.KernelIdeal.Points
import proofs.«146876_j64089501990951_1_alg».proof.Proof.Gen.KernelIdeal.Frame
import proofs.«146876_j64089501990951_1_alg».proof.Proof.Gen.ReferenceIdeal
import proofs.«146876_j64089501990951_1_alg».proof.Proof.Gen.Pre_finite_inputs
import proofs.«146876_j64089501990951_1_alg».proof.Proof.Gen.KernelIdeal.Value
import proofs.«146876_j64089501990951_1_alg».proof.Proof.Gen.ReferenceIdeal.Run
import proofs.«146876_j64089501990951_1_alg».proof.Proof.Gen.ReferenceIdeal.Read
import proofs.«146876_j64089501990951_1_alg».proof.Proof.Cell
import proofs.«146876_j64089501990951_1_alg».proof.Proof.KernelValue
import proofs.«146876_j64089501990951_1_alg».proof.Proof.RefValue
import Idealize.ShloMosaic.Adequacy
import Idealize.ShloMosaic.Init

noncomputable section

namespace Cert.Proof

open Idealize.ShloMosaic Idealize.ShloMosaic.TcCoe Idealize.SL.Sem Cert.TimeCell

/-- The kernel as printed terminates without a fault and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- So does the reference: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the seven arguments, the kernel ends with the arrays of new hidden states and new cell
    states of its arguments, and the reference with the same two arrays of its own. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v75_eq, Cert.ReferenceIdeal.Whole.h_eq, (hagree c).1, (hagree c).2.1,
      (hagree c).2.2.1, (hagree c).2.2.2.1, (hagree c).2.2.2.2.1, (hagree c).2.2.2.2.2.1, (hagree c).2.2.2.2.2.2]
  · rw [Cert.ReferenceIdeal.Read.val_main_v65_eq, Cert.ReferenceIdeal.Whole.c_eq, (hagree c).1, (hagree c).2.1,
      (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
